-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S10000x256 .f32) (main_arg1 : IVec S2x320000 32) (main_arg2 : FVec F S512x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩
abbrev S256x256 : Shape := ⟨2, ![256, 256]⟩
abbrev S1x256 : Shape := ⟨2, ![1, 256]⟩
abbrev S1000x256 : Shape := ⟨2, ![1000, 256]⟩
abbrev S1000 : Shape := ⟨1, ![1000]⟩
abbrev S1000x1 : Shape := ⟨2, ![1000, 1]⟩

abbrev nBuf : Space → Nat
  | .hbm => 37
  | .vmem => 9
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x256, .f32⟩
  | .hbm, ⟨17, _⟩ => ⟨S_, .f32⟩
  | .hbm, ⟨18, _⟩ => ⟨S10000x256, .f32⟩
  | .hbm, ⟨19, _⟩ => ⟨S320000x1, .i32⟩
  | .hbm, ⟨20, _⟩ => ⟨S10000x256, .f32⟩
  | .hbm, ⟨21, _⟩ => ⟨S_, .f32⟩
  | .hbm, ⟨22, _⟩ => ⟨S320000, .f32⟩
  | .hbm, ⟨23, _⟩ => ⟨S_, .f32⟩
  | .hbm, ⟨24, _⟩ => ⟨S10000, .f32⟩
  | .hbm, ⟨25, _⟩ => ⟨S320000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x256, .f32⟩
  | .hbm, ⟨32, _⟩ => ⟨S10000x256, .f32⟩
  | .hbm, ⟨33, _⟩ => ⟨S256x256, .f32⟩
  | .hbm, ⟨34, _⟩ => ⟨S256x256, .f32⟩
  | .hbm, ⟨35, _⟩ => ⟨S1x256, .f32⟩
  | .hbm, ⟨36, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1000x256, .f32⟩
  | .local _ .vmem, ⟨8, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  slices_S512x256_S256x256_0_0 : S512x256.Slices ![0, 0] S256x256
  slices_S512x256_S256x256_256_0 : S512x256.Slices ![256, 0] S256x256
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S1000x256_S1000 : S1000x256.Reduces [1] S1000
  shapeCasts_S1000_S1000x1 : S1000.ShapeCasts S1000x1
  broadcasts_S1000x1_S1000x256 : S1000x1.Broadcasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S10000x256.size a
  hwx0_1 : ∀ i : grid0.Coords, EltTy.bits .f32 = 32 ∨ (Rect.block (s := S10000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S10000x256.size a
  hwx0_5 : ∀ i : grid0.Coords, EltTy.bits .f32 = 32 ∨ (Rect.block (s := S10000x256) S1000x256.size (cc0_transform_5 i) (hinb0_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩
abbrev S10000x512 : Shape := ⟨2, ![10000, 512]⟩
abbrev S1x256 : Shape := ⟨2, ![1, 256]⟩

abbrev nBuf : Space → Nat
  | .hbm => 45
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x256, .f32⟩
  | .hbm, ⟨17, _⟩ => ⟨S_, .f32⟩
  | .hbm, ⟨18, _⟩ => ⟨S10000x256, .f32⟩
  | .hbm, ⟨19, _⟩ => ⟨S320000x1, .i32⟩
  | .hbm, ⟨20, _⟩ => ⟨S10000x256, .f32⟩
  | .hbm, ⟨21, _⟩ => ⟨S_, .f32⟩
  | .hbm, ⟨22, _⟩ => ⟨S320000, .f32⟩
  | .hbm, ⟨23, _⟩ => ⟨S_, .f32⟩
  | .hbm, ⟨24, _⟩ => ⟨S10000, .f32⟩
  | .hbm, ⟨25, _⟩ => ⟨S320000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x256, .f32⟩
  | .hbm, ⟨32, _⟩ => ⟨S10000x256, .f32⟩
  | .hbm, ⟨33, _⟩ => ⟨S10000x512, .f32⟩
  | .hbm, ⟨34, _⟩ => ⟨S10000x256, .f32⟩
  | .hbm, ⟨35, _⟩ => ⟨S10000x256, .f32⟩
  | .hbm, ⟨36, _⟩ => ⟨S_, .f32⟩
  | .hbm, ⟨37, _⟩ => ⟨S10000, .f32⟩
  | .hbm, ⟨38, _⟩ => ⟨S10000x1, .f32⟩
  | .hbm, ⟨39, _⟩ => ⟨S10000x1, .f32⟩
  | .hbm, ⟨40, _⟩ => ⟨S10000x256, .f32⟩
  | .hbm, ⟨41, _⟩ => ⟨S10000x256, .f32⟩
  | .hbm, ⟨42, _⟩ => ⟨S1x256, .f32⟩
  | .hbm, ⟨43, _⟩ => ⟨S10000x256, .f32⟩
  | .hbm, ⟨44, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  reducesTo_S10000x256_S10000_d1 : S10000x256.ReducesTo [1] S10000
  h_S_ : 0 < S_.numel
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.Spec.lean ====
/-
  The mathematics of the layer, with no program in sight.

  A node's output row is the normalized image of its joined features under the weight, plus the bias: with
  `x` the node features, `a` the aggregated neighbour features (both `10000 × 256`) and `w` the `512 × 256` weight,

    lin i j = ∑ q, x (i, q) · w (q, j) + ∑ q, a (i, q) · w (256 + q, j)
    G (i, j) = lin i j / sqrt (∑ c, lin i c · lin i c) + b j

  on the extended reals. The product of the joined `10000 × 512` feature matrix `[x | a]` with `w` is `lin`: the
  sum over the 512 joined columns splits at column 256 into the two sums above, which only uses that addition of
  extended reals is commutative and associative (no finiteness is needed).
-/
import Idealize.ShloMosaic.PureOps.Ideal
import Idealize.ShloMosaic.Lib.ValueIdx
import Idealize.ShloMosaic.Lib.Pipeline.Value

noncomputable section

open scoped BigOperators

namespace Cert.Sage

open Idealize.ShloMosaic Idealize.ShloMosaic.ValueIdx

/-- A matrix of extended reals, indexed as an array of that shape. -/
abbrev Mat (r c : Nat) : Type := (⟨2, ![r, c]⟩ : Shape).Idx → EReal
/-- A vector of extended reals. -/
abbrev Row (c : Nat) : Type := (⟨1, ![c]⟩ : Shape).Idx → EReal

/-- Row `q` of the weight's upper half (the rows that meet the node's own features). -/
abbrev lo (q : Fin 256) : Fin 512 := ⟨q.val, by omega⟩
/-- Row `q` of the weight's lower half (the rows that meet the aggregated features). -/
abbrev hi (q : Fin 256) : Fin 512 := ⟨256 + q.val, by omega⟩

/-- The linear image of node `i`'s joined features, at output column `j`. -/
def lin (x a : Mat 10000 256) (w : Mat 512 256) (i : Fin 10000) (j : Fin 256) : EReal :=
  (∑ q : Fin 256, x (ix2 i q) * w (ix2 (lo q) j)) + ∑ q : Fin 256, a (ix2 i q) * w (ix2 (hi q) j)

/-- The layer's output: each row of `lin` divided by its Euclidean norm, plus the bias. -/
def G (x a : Mat 10000 256) (w : Mat 512 256) (b : Row 256) : Mat 10000 256 := fun y =>
  Ideal.div (lin x a w (y 0) (y 1)) (Ideal.sqrt (∑ c : Fin 256, lin x a w (y 0) c * lin x a w (y 0) c)) + b (ix1 (y 1))

/-- The joined feature matrix `[x | a]`. -/
def cat (x a : Mat 10000 256) : Mat 10000 512 := fun y =>
  if h : (y 1).val < 256 then x (ix2 (y 0) ⟨(y 1).val, h⟩)
  else a (ix2 (y 0) ⟨(y 1).val - 256, by have h2 : (y 1).val < 512 := (y 1).isLt; omega⟩)

theorem cat_lo (x a : Mat 10000 256) (i : Fin 10000) (q : Fin 256) : cat x a (ix2 i (lo q)) = x (ix2 i q) := by
  unfold cat
  rw [dif_pos (show ((ix2 i (lo q)) 1).val < 256 from q.isLt)]

theorem cat_hi (x a : Mat 10000 256) (i : Fin 10000) (q : Fin 256) : cat x a (ix2 i (hi q)) = a (ix2 i q) := by
  unfold cat
  rw [dif_neg (show ¬ ((ix2 i (hi q)) 1).val < 256 from by show ¬ (256 + q.val < 256); omega)]
  exact congrArg a (congrArg (ix2 i) (Fin.ext (by show 256 + q.val - 256 = q.val; omega)))

/-- THE SPLIT: the product of the joined features with the whole weight is the sum of the two half products. -/
theorem sum_cat (x a : Mat 10000 256) (w : Mat 512 256) (i : Fin 10000) (j : Fin 256) :
    (∑ k : Fin 512, cat x a (ix2 i k) * w (ix2 k j)) = lin x a w i j := by
  have h512 : 256 + 256 = 512 := by norm_num
  rw [← Fin.sum_congr' (fun k : Fin 512 => cat x a (ix2 i k) * w (ix2 k j)) h512, Fin.sum_univ_add]
  unfold lin
  refine congrArg₂ (· + ·) (Finset.sum_congr rfl fun q _ => ?_) (Finset.sum_congr rfl fun q _ => ?_)
  · have e : Fin.cast h512 (Fin.castAdd 256 q) = lo q := Fin.ext rfl
    rw [e, cat_lo]
  · have e : Fin.cast h512 (Fin.natAdd 256 q) = hi q := Fin.ext rfl
    rw [e, cat_hi]

/-- A two-piece join along the columns, whatever witnesses the shapes' relation, is `cat`. -/
theorem concatenate_eq_cat (x a : Mat 10000 256)
    (h : Shape.Concatenates [(⟨2, ![10000, 256]⟩ : Shape), (⟨2, ![10000, 256]⟩ : Shape)] (⟨2, ![10000, 512]⟩ : Shape) 1) :
    concatenate (⟨2, ![10000, 512]⟩ : Shape) 1 [⟨(⟨2, ![10000, 256]⟩ : Shape), x⟩, ⟨(⟨2, ![10000, 256]⟩ : Shape), a⟩] h = cat x a := by
  funext y
  unfold cat
  by_cases hy : (y 1).val < 256
  · rw [dif_pos hy]
    refine concatenate_pair_apply_left (1 : Fin 2) x a h y rfl _ fun b => ?_
    match b with
    | ⟨0, _⟩ => rfl
    | ⟨1, _⟩ => rfl
  · rw [dif_neg hy]
    refine concatenate_pair_apply_right (1 : Fin 2) x a h y rfl rfl _ (fun b hb => ?_) ?_
    · match b with
      | ⟨0, _⟩ => rfl
      | ⟨1, _⟩ => exact absurd rfl hb
    · show (y 1).val - 256 + 256 = (y 1).val
      omega

end Cert.Sage

end
-- ==== Proof.RefValue.lean ====
/-
  The reference's result, read index by index, is the layer function `G` of its arguments and of its own
  aggregated-feature array: the product of the joined features with the weight is the split sum `lin`, the row norm
  is the square root of the row's sum of squares (the sum starts from the constant zero), the quotient is the
  extended-real quotient, and the bias is broadcast along the rows.
-/
import proofs.«118072_j14886356648743_1_alg».proof.Proof.Gen.ReferenceIdeal.Read
import proofs.«118072_j14886356648743_1_alg».proof.Proof.Spec

noncomputable section

open scoped BigOperators

namespace Cert.Sage.Ref

open Cert.ReferenceIdeal Cert.ReferenceIdeal.Gen Cert.ReferenceIdeal.Read
open Idealize.ShloMosaic Idealize.ShloMosaic.ValueIdx Cert.Sage

variable (x0 : (⟨S10000x256, .f32⟩ : BufTy).Contents (Elt Ideal)) (x1 : (⟨S2x320000, .i32⟩ : BufTy).Contents (Elt Ideal))
  (x2 : (⟨S512x256, .f32⟩ : BufTy).Contents (Elt Ideal)) (x3 : (⟨S256, .f32⟩ : BufTy).Contents (Elt Ideal))

/-- The reference's joined array is `[x | agg]`. -/
theorem joined_eq : val_main_v23 (F := Ideal) x0 x1 = cat x0 (val_main_v22 (F := Ideal) x0 x1) := by
  unfold val_main_v23
  exact concatenate_eq_cat _ _ _

/-- The reference's product with the weight, at an index, is the split sum. -/
theorem product_apply (z : S10000x256.Idx) :
    val_main_v24 (F := Ideal) x0 x1 x2 z = lin x0 (val_main_v22 (F := Ideal) x0 x1) x2 (z 0) (z 1) := by
  rw [val_main_v24_apply, joined_eq]
  refine Eq.trans (Finset.sum_congr rfl fun k _ => ?_) (sum_cat x0 (val_main_v22 (F := Ideal) x0 x1) x2 (z 0) (z 1))
  have el : lidx_main_v24 z k = ix2 (z 0) k :=
    funext fun a => Fin.ext (by match a with | ⟨0, _⟩ => rfl | ⟨1, _⟩ => rfl)
  have er : ridx_main_v24 z k = ix2 k (z 1) :=
    funext fun a => Fin.ext (by match a with | ⟨0, _⟩ => rfl | ⟨1, _⟩ => rfl)
  rw [el, er]
  rfl

/-- THE REFERENCE IS `G`. -/
theorem result_eq :
    val_main_v30 (F := Ideal) x0 x1 x2 x3 = G x0 (val_main_v22 (F := Ideal) x0 x1) x2 x3 := by
  funext y
  rw [val_main_v30_apply, val_main_v27_apply, val_main_v26_apply, val_main_v25_apply, val_main_call0_v2_apply,
    val_main_call0_v1_apply, val_main_v29_apply, val_main_v28_apply, product_apply]
  simp only [val_main_call0_v0_apply, product_apply, val_main_call0_cst_apply]
  unfold G
  have e0 : ∀ k : Fin 256, idx_main_call0_v1 (idx_main_call0_v2 (idx_main_v26 y)) k 0 = y 0 := fun k => Fin.ext rfl
  have e1 : ∀ k : Fin 256, idx_main_call0_v1 (idx_main_call0_v2 (idx_main_v26 y)) k 1 = k := fun k => Fin.ext rfl
  have e2 : idx_main_v28 (idx_main_v29 y) = ix1 (y 1) :=
    funext fun a => Fin.ext (by match a with | ⟨0, _⟩ => rfl)
  simp only [e0, e1, e2, Ideal.addf_def, Ideal.hostDivf_def, Ideal.hostUnary_sqrt_def, Ideal.mulf_def, Ideal.ofBits_def,
    Ideal.ofBits_zero_f32, zero_add]
  rfl

end Cert.Sage.Ref

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.LibPlainDotSum.lean ====
/-
  A matrix product read at an entry, as the textbook sum.

  A product of an `M × K` by a `K × N` matrix whose dimension numbers contract the left operand's columns with the
  right operand's rows, keep the left rows and the right columns in that order, and have no batch axis. At result
  entry `(i, j)` and contraction position `k` the left operand is read at `(i, k)` and the right at `(k, j)`, and the
  one-axis contraction index set is its coordinate range `Fin K`; so the sum over the contraction index is
  `∑ q : Fin K, A (i, q) * B (q, j)`. Stated for ANY dimension-number record with those lists and for operands of any
  two float formats, at the extended reals: for the accumulating block product into a zero accumulator and for the
  host's product. Nothing here depends on a particular program.
-/
import Idealize.ShloMosaic.PureOps.Ideal
import Idealize.ShloMosaic.PureOps.Ideal.Laws
import Idealize.ShloMosaic.Lib.ValueIdx

noncomputable section

open scoped BigOperators

namespace Cert.LibPlainDotSum

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry `(i, j)`: at contraction position `k` with coordinate `q` the
    left operand is read at `(i, q)` and the right at `(q, j)`, and the positions correspond one to one to the
    coordinates `q : Fin K`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)

/-- A block product into the zero accumulator, read at `(i, j)`, is that sum. -/
theorem matmul_zero_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    matmul d prec l r (constant (⟨2, ![M, N]⟩ : Shape) .f32 0x00000000#32) (ix2 i j)
      = ∑ q : Fin K, l (ix2 i q) * r (ix2 q j) := by
  show FloatOps.matmul d prec l r (constant (⟨2, ![M, N]⟩ : Shape) .f32 0x00000000#32) (ix2 i j) = _
  rw [Ideal.matmul_constant_zero_apply]
  exact plain_sum d hlc hrc hln hrn hlb hrb l r i j

/-- The host's product, read at `(i, j)`, is that sum. -/
theorem hostDot_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    Host.dotGeneral d prec l r (ix2 i j) = ∑ q : Fin K, l (ix2 i q) * r (ix2 q j) := by
  simp only [Host.dotGeneral]
  rw [Ideal.dotGeneral_apply]
  exact plain_sum d hlc hrc hln hrn hlb hrb l r i j

end Cert.LibPlainDotSum

end
-- ==== Proof.Payload.lean ====
/-
  The kernel body's value at an entry of its block.

  On a block of 1000 rows the body forms `out = xb · w1 + ab · w2` (two products into zero accumulators, added),
  the row sums of squares of `out`, their square roots as a column, and stores `out / norm + bias`. Read at
  `(p, c)` over the extended reals this is `blin p c / sqrt (∑ c', blin p c' · blin p c') + bias c`, where
  `blin p c = ∑ q, xb (p, q) · w1 (q, c) + ∑ q, ab (p, q) · w2 (q, c)`: the narrowing casts of the operands are the
  identity, a product into a zero accumulator is the textbook sum, and the lane reduction from zero is the row sum.
-/
import proofs.«118072_j14886356648743_1_alg».proof.Proof.Gen.KernelIdeal.Skeleton
import proofs.«118072_j14886356648743_1_alg».proof.Proof.LibKeepdims
import proofs.«118072_j14886356648743_1_alg».proof.Proof.LibPlainDotSum
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage.Kernel

open Cert.KernelIdeal Cert.KernelIdeal.Gen
open Idealize.ShloMosaic Idealize.ShloMosaic.ValueIdx Cert.Lib.Keepdims

variable (xb ab : Vec Ideal S1000x256 .f32) (w1 w2 : Vec Ideal S256x256 .f32) (bb : Vec Ideal S1x256 .f32)

/-- The block's linear part: the rows' own features times the weight's upper half plus the aggregated features times
    its lower half. -/
def blin (p : Fin 1000) (c : Fin 256) : EReal :=
  (∑ q : Fin 256, xb (ix2 p q) * w1 (ix2 q c)) + ∑ q : Fin 256, ab (ix2 p q) * w2 (ix2 q c)

/-- The body's sum of the two block products, as the body writes it. -/
def out13 : FVec Ideal S1000x256 .f32 :=
  addf
    (matmul dot_S1000x256_S256x256_S1000x256_1_0_0_1_n_n none (truncf .bf16 xb bitsLt_bf16_f32)
      (truncf .bf16 (shapeCast S256x256 w1 shapeCasts_S256x256_S256x256) bitsLt_bf16_f32) (constant S1000x256 .f32 0x00000000#32))
    (matmul dot_S1000x256_S256x256_S1000x256_1_0_0_1_n_n none
      (truncf .bf16 (shapeCast S1000x256 ab shapeCasts_S1000x256_S1000x256) bitsLt_bf16_f32)
      (truncf .bf16 (shapeCast S256x256 w2 shapeCasts_S256x256_S256x256) bitsLt_bf16_f32) (constant S1000x256 .f32 0x00000000#32))

/-- A block product with narrowed operands into the zero accumulator is the textbook sum. -/
theorem product_apply (a : Vec Ideal S1000x256 .f32) (b : Vec Ideal S256x256 .f32) (r : Fin 1000) (s : Fin 256) :
    matmul (F := Ideal) dot_S1000x256_S256x256_S1000x256_1_0_0_1_n_n none (truncf (F := Ideal) .bf16 a bitsLt_bf16_f32)
        (truncf (F := Ideal) .bf16 b bitsLt_bf16_f32) (constant (F := Ideal) S1000x256 .f32 0x00000000#32) (ix2 r s)
      = ∑ q : Fin 256, a (ix2 r q) * b (ix2 q s) :=
  Cert.LibPlainDotSum.matmul_zero_apply dot_S1000x256_S256x256_S1000x256_1_0_0_1_n_n rfl rfl rfl rfl rfl rfl none
    (truncf .bf16 a bitsLt_bf16_f32) (truncf .bf16 b bitsLt_bf16_f32) r s

theorem out13_apply (p : Fin 1000) (c : Fin 256) : out13 xb ab w1 w2 (ix2 p c) = blin xb ab w1 w2 p c := by
  unfold out13 blin
  rw [addf_apply, shapeCast_self, shapeCast_self, shapeCast_self, product_apply, product_apply]

/-- A lane sum from zero along the columns, read at row `p`, is the row's sum. -/
theorem rowsum_apply (src : FVec Ideal S1000x256 .f32) (p : Fin 1000) :
    multiReduction (F := Ideal) .add [1] S1000 src 0x00000000#32 reduces_S1000x256_S1000 (.inl rfl) rfl (ix1 p)
      = ∑ k : Fin 256, src (ix2 p k) :=
  (Ideal.multiReduction_add_single src 0x00000000#32 reduces_S1000x256_S1000 (.inl rfl) rfl (ix1 p)).trans
    (Finset.sum_congr rfl fun k _ => congrArg src (funext fun a => Fin.ext (by
      match a with
      | ⟨0, _⟩ => rfl
      | ⟨1, _⟩ => rfl)))

/-- The body's stored value is this expression of `out13` (the body's text, its local names substituted). -/
theorem pay_eq : k0_pay1 (F := Ideal) xb ab w1 w2 bb
    = addf (divf (out13 xb ab w1 w2) (broadcastTo S1000x256 (sqrt (shapeCast S1000x1
        (multiReduction .add [1] S1000 (mulf (out13 xb ab w1 w2) (out13 xb ab w1 w2)) 0x00000000#32 reduces_S1000x256_S1000 (.inl rfl) rfl)
        shapeCasts_S1000_S1000x1)) broadcasts_S1000x1_S1000x256))
      (broadcastTo S1000x256 (shapeCast S1x256 bb shapeCasts_S1x256_S1x256) broadcasts_S1x256_S1000x256) := rfl

/-- THE BODY AT AN ENTRY. -/
theorem pay_apply (p : Fin 1000) (c : Fin 256) :
    k0_pay1 (F := Ideal) xb ab w1 w2 bb (ix2 p c)
      = Ideal.div (blin xb ab w1 w2 p c) (Ideal.sqrt (∑ c' : Fin 256, blin xb ab w1 w2 p c' * blin xb ab w1 w2 p c'))
        + bb (ix2 (0 : Fin 1) c) := by
  rw [pay_eq, addf_apply, divf_apply, broadcastTo_a1_ab_apply, broadcastTo_1b_ab_apply, shapeCast_self, out13_apply]
  show Ideal.div _ (Ideal.sqrt (shapeCast S1000x1 _ shapeCasts_S1000_S1000x1 (ix2 p (0 : Fin 1)))) + _ = _
  rw [shapeCast_a_a1_apply, rowsum_apply]
  simp only [mulf_apply, out13_apply]

end Cert.Sage.Kernel

end
-- ==== Proof.Blocks.lean ====
/-
  From the blocks to the whole array.

  The grid has ten points; point `t` works on rows `1000·t … 1000·t + 999`: it reads those rows of the node features
  and of the aggregated features, the two halves of the weight and the bias row whole, and writes those rows of the
  output. So the value point `t` writes back at `(p, c)` of its block is the layer's value at `(1000·t + p, c)` of the
  arrays the region finds, and since the ten row blocks tile the output the array ends holding that function everywhere.
-/
import proofs.«118072_j14886356648743_1_alg».proof.Proof.Gen.KernelIdeal.Value
import proofs.«118072_j14886356648743_1_alg».proof.Proof.Payload

set_option maxRecDepth 16384

noncomputable section

open scoped BigOperators

namespace Cert.Sage.Kernel

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds, and the blocks a point reads, at their literal types -/

abbrev xarr (c : Dev nD) : Vec Ideal S10000x256 .f32 := V m c main_arg0
abbrev aarr (c : Dev nD) : Vec Ideal S10000x256 .f32 := V m c main_v22
abbrev w1arr (c : Dev nD) : Vec Ideal S256x256 .f32 := V m c main_v23
abbrev w2arr (c : Dev nD) : Vec Ideal S256x256 .f32 := V m c main_v24
abbrev barr (c : Dev nD) : Vec Ideal S1x256 .f32 := V m c main_v25

abbrev xblk (c : Dev nD) (t : Fin cfg0.N) : Vec Ideal S1000x256 .f32 := iblk m c 0 t
abbrev ablk (c : Dev nD) (t : Fin cfg0.N) : Vec Ideal S1000x256 .f32 := iblk m c 1 t
abbrev w1blk (c : Dev nD) (t : Fin cfg0.N) : Vec Ideal S256x256 .f32 := iblk m c 2 t
abbrev w2blk (c : Dev nD) (t : Fin cfg0.N) : Vec Ideal S256x256 .f32 := iblk m c 3 t
abbrev bblk (c : Dev nD) (t : Fin cfg0.N) : Vec Ideal S1x256 .f32 := iblk m c 4 t

/-- Row `p` of point `t`'s block is row `1000·t + p` of the array. -/
abbrev rowOf (t : Fin cfg0.N) (p : Fin 1000) : Fin 10000 :=
  ⟨t.val * 1000 + p.val, by have h := t.isLt; have hN : cfg0.N = 10 := N_0; omega⟩

/-- The printed index maps over the grid: the row-blocked windows sit at block row `t`, block column 0; the weight
    halves and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each block read off its array -/

theorem xblk_apply (c : Dev nD) (t : Fin cfg0.N) (p : Fin 1000) (q : Fin 256) :
    xblk m c t (ix2 p q) = xarr m c (ix2 (rowOf t p) q) := by
  show V m c main_arg0 (((cfg0.win 0).blk t).view.emb (ix2 p q)) = _
  refine congrArg (V m c main_arg0) (funext fun a => Fin.ext ?_)
  obtain ⟨e0, e1, -⟩ := idx_facts t
  match a with
  | ⟨0, _⟩ => show win0_0.index t (0 : Fin 2) * 1000 + 1 * p.val = t.val * 1000 + p.val; omega
  | ⟨1, _⟩ => show win0_0.index t (1 : Fin 2) * 256 + 1 * q.val = q.val; omega

theorem ablk_apply (c : Dev nD) (t : Fin cfg0.N) (p : Fin 1000) (q : Fin 256) :
    ablk m c t (ix2 p q) = aarr m c (ix2 (rowOf t p) q) := by
  show V m c main_v22 (((cfg0.win 1).blk t).view.emb (ix2 p q)) = _
  refine congrArg (V m c main_v22) (funext fun a => Fin.ext ?_)
  obtain ⟨-, -, e0, e1, -⟩ := idx_facts t
  match a with
  | ⟨0, _⟩ => show win0_1.index t (0 : Fin 2) * 1000 + 1 * p.val = t.val * 1000 + p.val; omega
  | ⟨1, _⟩ => show win0_1.index t (1 : Fin 2) * 256 + 1 * q.val = q.val; omega

theorem w1blk_apply (c : Dev nD) (t : Fin cfg0.N) (q : Fin 256) (s : Fin 256) :
    w1blk m c t (ix2 q s) = w1arr m c (ix2 q s) := by
  show V m c main_v23 (((cfg0.win 2).blk t).view.emb (ix2 q s)) = _
  refine congrArg (V m c main_v23) (funext fun a => Fin.ext ?_)
  obtain ⟨-, -, -, -, e0, e1, -⟩ := idx_facts t
  match a with
  | ⟨0, _⟩ => show win0_2.index t (0 : Fin 2) * 256 + 1 * q.val = q.val; omega
  | ⟨1, _⟩ => show win0_2.index t (1 : Fin 2) * 256 + 1 * s.val = s.val; omega

theorem w2blk_apply (c : Dev nD) (t : Fin cfg0.N) (q : Fin 256) (s : Fin 256) :
    w2blk m c t (ix2 q s) = w2arr m c (ix2 q s) := by
  show V m c main_v24 (((cfg0.win 3).blk t).view.emb (ix2 q s)) = _
  refine congrArg (V m c main_v24) (funext fun a => Fin.ext ?_)
  obtain ⟨-, -, -, -, -, -, e0, e1, -⟩ := idx_facts t
  match a with
  | ⟨0, _⟩ => show win0_3.index t (0 : Fin 2) * 256 + 1 * q.val = q.val; omega
  | ⟨1, _⟩ => show win0_3.index t (1 : Fin 2) * 256 + 1 * s.val = s.val; omega

theorem bblk_apply (c : Dev nD) (t : Fin cfg0.N) (u : Fin 1) (s : Fin 256) :
    bblk m c t (ix2 u s) = barr m c (ix2 u s) := by
  show V m c main_v25 (((cfg0.win 4).blk t).view.emb (ix2 u s)) = _
  refine congrArg (V m c main_v25) (funext fun a => Fin.ext ?_)
  obtain ⟨-, -, -, -, -, -, -, -, e0, e1, -⟩ := idx_facts t
  match a with
  | ⟨0, _⟩ => show win0_4.index t (0 : Fin 2) * 1 + 1 * u.val = u.val; omega
  | ⟨1, _⟩ => show win0_4.index t (1 : Fin 2) * 256 + 1 * s.val = s.val; omega

/-! ## The function the output array ends at -/

/-- The linear part over the arrays the region finds. -/
def klin (c : Dev nD) (i : Fin 10000) (j : Fin 256) : EReal :=
  (∑ q : Fin 256, xarr m c (ix2 i q) * w1arr m c (ix2 q j)) + ∑ q : Fin 256, aarr m c (ix2 i q) * w2arr m c (ix2 q j)

/-- The output array, index by index, over the arrays the region finds. -/
def GK (c : Dev nD) : Vec Ideal S10000x256 .f32 := fun y =>
  Ideal.div (klin m c (y 0) (y 1)) (Ideal.sqrt (∑ c' : Fin 256, klin m c (y 0) c' * klin m c (y 0) c'))
    + barr m c (ix2 (0 : Fin 1) (y 1))

theorem blin_blocks (c : Dev nD) (t : Fin cfg0.N) (p : Fin 1000) (s : Fin 256) :
    blin (xblk m c t) (ablk m c t) (w1blk m c t) (w2blk m c t) p s = klin m c (rowOf t p) s := by
  unfold blin klin
  simp only [xblk_apply, ablk_apply, w1blk_apply, w2blk_apply]

theorem hz : (![0, 0] : Fin 2 → Nat) = fun _ => 0 := funext fun a => by fin_cases a <;> rfl

/-- WHAT POINT `t` WRITES BACK is block `t` of `GK`. -/
theorem flushed_eq (c : Dev nD) (t : Fin cfg0.N) :
    (dats m 0 c).flushed 5 t = ((cfg0.win 5).blk t).view.read (Elt Ideal) (GK m c) := by
  rw [Cert.KernelIdeal.Value.flushed5]
  unfold out0_5
  rw [View.canon_unit_zero hz]
  simp only [View.ld_unit_zero (S := S1000x256) hz, View.ld_unit_zero (S := S256x256) hz, View.ld_unit_zero (S := S1x256) hz]
  funext j
  obtain ⟨p, s, rfl⟩ : ∃ (p : Fin 1000) (s : Fin 256), j = ix2 p s := ⟨j 0, j 1, eq_ix2 j⟩
  show k0_pay1 (F := Ideal) (xblk m c t) (ablk m c t) (w1blk m c t) (w2blk m c t) (bblk m c t) (ix2 p s)
    = GK m c (((cfg0.win 5).blk t).view.emb (ix2 p s))
  have hemb : ((cfg0.win 5).blk t).view.emb (ix2 p s) = ix2 (rowOf t p) s := by
    refine funext fun a => Fin.ext ?_
    obtain ⟨-, -, -, -, -, -, -, -, -, -, e0, e1⟩ := idx_facts t
    match a with
    | ⟨0, _⟩ => show win0_5.index t (0 : Fin 2) * 1000 + 1 * p.val = t.val * 1000 + p.val; omega
    | ⟨1, _⟩ => show win0_5.index t (1 : Fin 2) * 256 + 1 * s.val = s.val; omega
  rw [hemb, pay_apply]
  unfold GK
  simp only [blin_blocks, bblk_apply]

/-- An index of the array is in point `t`'s block iff each coordinate is in the block's range on its axis. -/
theorem mem_blk (t : Fin cfg0.N) (i : S10000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v26).slice (win0_5.rect t)).set ↔ _
  rw [View.set_slice_whole, Rect.mem_set_unit]
  exact Iff.rfl

/-- Every index of the output is in the block of the point that owns its row. -/
theorem cover (i : S10000x256.Idx) :
    ∃ t : Fin cfg0.N, (cfg0.win 5).flush t = true ∧ i ∈ ((cfg0.win 5).blk t).view.set := by
  have hi0 : (i 0).val < 10000 := (i 0).isLt
  have hi1 : (i 1).val < 256 := (i 1).isLt
  have hN : cfg0.N = 10 := N_0
  refine ⟨⟨(i 0).val / 1000, by omega⟩, flush0_5 _, ?_⟩
  rw [mem_blk]
  obtain ⟨-, -, -, -, -, -, -, -, -, -, e0, e1⟩ := idx_facts ⟨(i 0).val / 1000, by omega⟩
  intro a
  match a with
  | ⟨0, _⟩ =>
    show win0_5.index _ (0 : Fin 2) * 1000 ≤ (i 0).val ∧ (i 0).val < win0_5.index _ (0 : Fin 2) * 1000 + 1000
    rw [e0]; show (i 0).val / 1000 * 1000 ≤ (i 0).val ∧ (i 0).val < (i 0).val / 1000 * 1000 + 1000; omega
  | ⟨1, _⟩ =>
    show win0_5.index _ (1 : Fin 2) * 256 ≤ (i 1).val ∧ (i 1).val < win0_5.index _ (1 : Fin 2) * 256 + 256
    rw [e1]; omega

/-- THE ARRAY after the run is `GK`. -/
theorem final (c : Dev nD) : (dats m 0 c).arrAt 5 cfg0.N = GK m c :=
  (dats m 0 c).arrAt_eq_of_cover 5 (GK m c) (fun t _ => flushed_eq m c t) cover

end Cert.Sage.Kernel

end
-- ==== Proof.HostSide.lean ====
/-
  What the region finds in the arrays that the host operations before it write.

  Before the kernel runs, the program gathers the source rows of the edges, adds them into their destination rows,
  counts each destination's edges, and divides the row sums by the counts (at least one): the aggregated features.
  It also cuts the weight into its upper and lower halves and lays the bias out as a one-row matrix. Each of these
  arrays, when the region is entered, is that composition of the argument arrays. The aggregation is kept as ONE
  named function of the features and the edge list: nothing below ever looks inside it.
-/
import proofs.«118072_j14886356648743_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Sage.Kernel

open Cert.KernelIdeal Cert.KernelIdeal.Gen
open Idealize.ShloMosaic Idealize.ShloMosaic.TcCoe Idealize.ShloMosaic.ValueIdx Idealize.SL.Sem Idealize.ShloMosaic.StableHlo

/-- The edges' endpoints on row `r` of the edge list (row 0 the sources, row 1 the destinations), as a vector. -/
def endpoints (r : Nat) (h : S2x320000.Slices ![r, 0] S1x320000) (e : (⟨S2x320000, .i32⟩ : BufTy).Contents (Elt Ideal)) :
    (⟨S320000, .i32⟩ : BufTy).Contents (Elt Ideal) :=
  shapeCast _ (extractStridedSlice S1x320000 ![r, 0] e h) shapeCasts_S1x320000_S320000

/-- The aggregated neighbour features as the host operations compute them: the gathered source rows (a negative
    source index wrapped once) summed into their destination rows, divided by the destination's edge count or one. -/
def aggK (x : (⟨S10000x256, .f32⟩ : BufTy).Contents (Elt Ideal)) (e : (⟨S2x320000, .i32⟩ : BufTy).Contents (Elt Ideal)) :
    (⟨S10000x256, .f32⟩ : BufTy).Contents (Elt Ideal) :=
  Host.divf (F := Ideal)
    (Host.scatterAdd (F := Ideal) scatter_S10000x256_S320000x1_S320000x256_1_0_0_1
      (broadcastInDim S10000x256 ![] bcast_S_S10000x256 (constant (F := Ideal) S_ .f32 0x00000000#32))
      (broadcastInDim S320000x1 ![0] bcast_S320000_S320000x1_0 (endpoints 1 slices_S2x320000_S1x320000_1_0 e))
      (Host.gather gather_S10000x256_S320000x1_S320000x256_1_0_n_n_0_1_1256 x
        (broadcastInDim S320000x1 ![0] bcast_S320000_S320000x1_0
          (select (cmpi .slt (endpoints 0 slices_S2x320000_S1x320000_0_0 e) (broadcastInDim S320000 ![] bcast_S_S320000 (constantI S_ 32 0#32)))
            (addi (endpoints 0 slices_S2x320000_S1x320000_0_0 e) (broadcastInDim S320000 ![] bcast_S_S320000 (constantI S_ 32 10000#32)))
            (endpoints 0 slices_S2x320000_S1x320000_0_0 e)))))
    (broadcastInDim S10000x256 ![0, 1] bcast_S10000x1_S10000x256_0_1
      (broadcastInDim S10000x1 ![0] bcast_S10000_S10000x1_0
        (maximumf (F := Ideal)
          (Host.scatterAdd (F := Ideal) scatter_S10000_S320000x1_S320000_n_0_0_1
            (broadcastInDim S10000 ![] bcast_S_S10000 (constant (F := Ideal) S_ .f32 0x00000000#32))
            (broadcastInDim S320000x1 ![0] bcast_S320000_S320000x1_0 (endpoints 1 slices_S2x320000_S1x320000_1_0 e))
            (broadcastInDim S320000 ![] bcast_S_S320000 (constant (F := Ideal) S_ .f32 0x3F800000#32)))
          (broadcastInDim S10000 ![] bcast_S_S10000 (constant (F := Ideal) S_ .f32 0x3F800000#32)))))

variable (m : (ℓ : Loc nD τ sig) → Buf (Elt Ideal) ℓ)

set_option maxHeartbeats 2000000 in
/-- The region finds the aggregated features in the second window's array. -/
theorem V_agg (c : Dev nD) :
    (V m c main_v22 : S10000x256.Idx → EReal)
      = aggK (m ((c : Thread nD τ).loc main_arg0)) (m ((c : Thread nD τ).loc main_arg1)) := by
  dsimp only [Gen.V, Gen.hostOps0]
  after_results_simp <;> rfl

/-- The weight's upper half. -/
theorem V_w1 (c : Dev nD) :
    (V m c main_v23 : S256x256.Idx → EReal)
      = extractStridedSlice S256x256 ![0, 0] (m ((c : Thread nD τ).loc main_arg2)) slices_S512x256_S256x256_0_0 := by
  dsimp only [Gen.V, Gen.hostOps0]
  after_results <;> rfl

/-- The weight's lower half. -/
theorem V_w2 (c : Dev nD) :
    (V m c main_v24 : S256x256.Idx → EReal)
      = extractStridedSlice S256x256 ![256, 0] (m ((c : Thread nD τ).loc main_arg2)) slices_S512x256_S256x256_256_0 := by
  dsimp only [Gen.V, Gen.hostOps0]
  after_results <;> rfl

/-- The bias as a one-row matrix. -/
theorem V_bias (c : Dev nD) :
    (V m c main_v25 : S1x256.Idx → EReal)
      = shapeCast S1x256 (m ((c : Thread nD τ).loc main_arg3)) shapeCasts_S256_S1x256 := by
  dsimp only [Gen.V, Gen.hostOps0]
  after_results <;> rfl

end Cert.Sage.Kernel

end
-- ==== Proof.Bridge.lean ====
/-
  The kernel's output array is the layer function of the ARGUMENTS.

  The arrays the region finds are the arguments themselves (the node features), the aggregated features computed from
  them, and re-laid pieces of the arguments: row `q` of the weight's upper half is row `q` of the weight, row `q` of
  its lower half is row `256 + q`, and the one-row bias matrix at `(0, j)` is the bias at `j`. Substituting these, the
  function the output array ends at is `G` of the features, the aggregated features, the weight and the bias.
-/
import proofs.«118072_j14886356648743_1_alg».proof.Proof.Blocks
import proofs.«118072_j14886356648743_1_alg».proof.Proof.HostSide
import proofs.«118072_j14886356648743_1_alg».proof.Proof.Spec

noncomputable section

open scoped BigOperators

namespace Cert.Sage.Kernel

open Cert.KernelIdeal Cert.KernelIdeal.Gen
open Idealize.ShloMosaic Idealize.ShloMosaic.TcCoe Idealize.ShloMosaic.ValueIdx Idealize.SL.Sem Cert.Sage

variable (m : (ℓ : Loc nD τ sig) → Buf (Elt Ideal) ℓ)

/-- Row `q` of the upper half of the weight is its row `q`. -/
theorem w1arr_apply (c : Dev nD) (q j : Fin 256) :
    w1arr m c (ix2 q j) = m ((c : Thread nD τ).loc main_arg2) (ix2 (lo q) j) := by
  show (V m c main_v23 : S256x256.Idx → EReal) (ix2 q j) = _
  rw [V_w1]
  exact slice2_axis0_apply 0 _ slices_S512x256_S256x256_0_0 q j (lo q) (Nat.zero_add _).symm

/-- Row `q` of the lower half of the weight is its row `256 + q`. -/
theorem w2arr_apply (c : Dev nD) (q j : Fin 256) :
    w2arr m c (ix2 q j) = m ((c : Thread nD τ).loc main_arg2) (ix2 (hi q) j) := by
  show (V m c main_v24 : S256x256.Idx → EReal) (ix2 q j) = _
  rw [V_w2]
  exact slice2_axis0_apply 256 _ slices_S512x256_S256x256_256_0 q j (hi q) rfl

/-- The one-row bias matrix at `(0, j)` is the bias at `j`. -/
theorem barr_apply (c : Dev nD) (j : Fin 256) :
    barr m c (ix2 (0 : Fin 1) j) = m ((c : Thread nD τ).loc main_arg3) (ix1 j) := by
  show (V m c main_v25 : S1x256.Idx → EReal) (ix2 (0 : Fin 1) j) = _
  rw [V_bias]
  exact shapeCast_a_1a_apply _ shapeCasts_S256_S1x256 (0 : Fin 1) j

/-- The linear part over the region's arrays is the specification's, over the arguments. -/
theorem klin_eq (c : Dev nD) (i : Fin 10000) (j : Fin 256) :
    klin m c i j = lin (m ((c : Thread nD τ).loc main_arg0))
      (aggK (m ((c : Thread nD τ).loc main_arg0)) (m ((c : Thread nD τ).loc main_arg1)))
      (m ((c : Thread nD τ).loc main_arg2)) i j := by
  have hx : xarr m c = m ((c : Thread nD τ).loc main_arg0) := V_main_arg0 m c
  have ha : aarr m c = aggK (m ((c : Thread nD τ).loc main_arg0)) (m ((c : Thread nD τ).loc main_arg1)) := V_agg m c
  unfold klin lin
  refine congrArg₂ (· + ·) (Finset.sum_congr rfl fun q _ => ?_) (Finset.sum_congr rfl fun q _ => ?_)
  · exact congrArg₂ (· * ·) (congrFun hx _) (w1arr_apply m c q j)
  · exact congrArg₂ (· * ·) (congrFun ha _) (w2arr_apply m c q j)

/-- THE OUTPUT ARRAY is `G` of the arguments. -/
theorem GK_eq (c : Dev nD) :
    GK m c = G (m ((c : Thread nD τ).loc main_arg0))
      (aggK (m ((c : Thread nD τ).loc main_arg0)) (m ((c : Thread nD τ).loc main_arg1)))
      (m ((c : Thread nD τ).loc main_arg2)) (m ((c : Thread nD τ).loc main_arg3)) := by
  funext y
  obtain ⟨i, j, rfl⟩ : ∃ (i : Fin 10000) (j : Fin 256), y = ix2 i j := ⟨y 0, y 1, eq_ix2 y⟩
  unfold GK G
  show Ideal.div (klin m c i j) (Ideal.sqrt (∑ c' : Fin 256, klin m c i c' * klin m c i c')) + barr m c (ix2 (0 : Fin 1) j) = _
  rw [barr_apply]
  simp only [klin_eq]

end Cert.Sage.Kernel

end
-- ==== Proof.Joint.lean ====
/-
  The two programs compute the aggregated features by the same host operations, in the same order, on the same
  arguments: the kernel program's aggregation function and the reference's are one function.
-/
import proofs.«118072_j14886356648743_1_alg».proof.Proof.HostSide
import proofs.«118072_j14886356648743_1_alg».proof.Proof.Gen.ReferenceIdeal.Read

noncomputable section

namespace Cert.Sage

open Idealize.ShloMosaic

/-- The aggregation of the kernel program is the aggregation of the reference. -/
theorem agg_eq (x : (⟨Cert.KernelIdeal.S10000x256, .f32⟩ : BufTy).Contents (Elt Ideal))
    (e : (⟨Cert.KernelIdeal.S2x320000, .i32⟩ : BufTy).Contents (Elt Ideal)) :
    Cert.Sage.Kernel.aggK x e = Cert.ReferenceIdeal.Read.val_main_v22 (F := Ideal) x e := by
  unfold Cert.Sage.Kernel.aggK Cert.Sage.Kernel.endpoints
  unfold Cert.ReferenceIdeal.Read.val_main_v22 Cert.ReferenceIdeal.Read.val_main_v13 Cert.ReferenceIdeal.Read.val_main_v21
    Cert.ReferenceIdeal.Read.val_main_v20 Cert.ReferenceIdeal.Read.val_main_v19 Cert.ReferenceIdeal.Read.val_main_v17
    Cert.ReferenceIdeal.Read.val_main_v18 Cert.ReferenceIdeal.Read.val_main_v16 Cert.ReferenceIdeal.Read.val_main_v15
    Cert.ReferenceIdeal.Read.val_main_v14 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst Cert.ReferenceIdeal.Read.val_main_cst_1
    Cert.ReferenceIdeal.Read.val_main_cst_2 Cert.ReferenceIdeal.Read.val_main_cst_3
  rfl

end Cert.Sage

end
-- ==== Proof.lean ====
/-
  The certificate of a graph layer: mean-aggregate the neighbours' features, join them to the node's own, apply a
  linear map, normalize each row to unit Euclidean length and add a bias.

  Both programs compute the aggregated features `agg` with the same host operations (gather the edges' source rows,
  add them into their destination rows, divide by the destination's edge count or one). They differ in the linear
  map: the reference multiplies the joined `10000 × 512` matrix `[x | agg]` by the `512 × 256` weight, while the kernel
  multiplies `x` by the weight's upper half and `agg` by its lower half and adds the two, ten blocks of 1000 rows at a
  time. Over the extended reals the sum over the 512 joined columns splits at column 256 into those two sums (addition
  is commutative and associative; no input needs to be finite), the kernel's narrowing casts are the identity, its
  products into zero accumulators and its lane reduction from zero are plain sums, and both sides take the same
  square root and quotient. So both result arrays are the one function `Cert.Sage.G` of the arguments.

  The kernel's frames are the generated ones; the reference's frame is its generated run with the result dropped; the
  idealization rewrote nothing, so `preserves` is trivial.
-/
import proofs.«118072_j14886356648743_1_alg».proof.Defs
import proofs.«118072_j14886356648743_1_alg».proof.Proof.Gen.Kernel
import proofs.«118072_j14886356648743_1_alg».proof.Proof.Gen.Kernel.Skeleton
import proofs.«118072_j14886356648743_1_alg».proof.Proof.Gen.Kernel.Launch
import proofs.«118072_j14886356648743_1_alg».proof.Proof.Gen.Kernel.Points
import proofs.«118072_j14886356648743_1_alg».proof.Proof.Gen.Kernel.Frame
import proofs.«118072_j14886356648743_1_alg».proof.Proof.Gen.KernelIdeal
import proofs.«118072_j14886356648743_1_alg».proof.Proof.Gen.KernelIdeal.Skeleton
import proofs.«118072_j14886356648743_1_alg».proof.Proof.Gen.KernelIdeal.Launch
import proofs.«118072_j14886356648743_1_alg».proof.Proof.Gen.KernelIdeal.Points
import proofs.«118072_j14886356648743_1_alg».proof.Proof.Gen.KernelIdeal.Frame
import proofs.«118072_j14886356648743_1_alg».proof.Proof.Gen.ReferenceIdeal
import proofs.«118072_j14886356648743_1_alg».proof.Proof.Gen.Pre_finite_inputs
import proofs.«118072_j14886356648743_1_alg».proof.Proof.Gen.KernelIdeal.Value
import proofs.«118072_j14886356648743_1_alg».proof.Proof.Gen.ReferenceIdeal.Run
import proofs.«118072_j14886356648743_1_alg».proof.Proof.Gen.ReferenceIdeal.Read
import proofs.«118072_j14886356648743_1_alg».proof.Proof.RefValue
import proofs.«118072_j14886356648743_1_alg».proof.Proof.Bridge
import proofs.«118072_j14886356648743_1_alg».proof.Proof.Joint
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The kernel's run ends with its result array at `G` of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c : Thread Cert.KernelIdeal.nD Cert.KernelIdeal.τ).loc Cert.KernelIdeal.main_v26)
          = Cert.Sage.G (m ((c : Thread Cert.KernelIdeal.nD Cert.KernelIdeal.τ).loc Cert.KernelIdeal.main_arg0))
              (Cert.Sage.Kernel.aggK (m ((c : Thread Cert.KernelIdeal.nD Cert.KernelIdeal.τ).loc Cert.KernelIdeal.main_arg0))
                (m ((c : Thread Cert.KernelIdeal.nD Cert.KernelIdeal.τ).loc Cert.KernelIdeal.main_arg1)))
              (m ((c : Thread Cert.KernelIdeal.nD Cert.KernelIdeal.τ).loc Cert.KernelIdeal.main_arg2))
              (m ((c : Thread Cert.KernelIdeal.nD Cert.KernelIdeal.τ).loc Cert.KernelIdeal.main_arg3))
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3) :=
  (θ_run Cert.KernelIdeal.defs _ _).mono
    (fun r h c => ⟨(h c).1.trans ((Cert.Sage.Kernel.final m c).trans (Cert.Sage.Kernel.GK_eq m c)), (h c).2⟩)
    (Cert.KernelIdeal.Value.run_blocks (F := Ideal) m ρ)

/-- From memories that agree on the arguments both programs end with their result at the same `G`: the kernel by its
    run over the blocks, the reference by its run read stage by stage, the aggregated features being one function. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Sage.Ref.result_eq, (hagree c).1, (hagree c).2.1, (hagree c).2.2.1,
    (hagree c).2.2.2, Cert.Sage.agg_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
